-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x64 : Shape := ⟨2, ![262144, 64]⟩
abbrev S128x2048 : Shape := ⟨2, ![128, 2048]⟩
abbrev S_ : Shape := ⟨0, ![]⟩

class Facts : Prop where
  bcast_S_S262144x64 : S_.BroadcastsInDim S262144x64 (![] : Fin 0 → Fin S262144x64.rank)
  reducesTo_S262144x64_S_d0_1 : S262144x64.ReducesTo [0, 1] S_
  h_S_ : 0 < S_.numel

variable [Facts]

def fn {F : FTy → Type} [FloatOps F] (main_arg0 : FVec F S262144x64 .f32) (main_arg1 : FVec F S262144x64 .f32) (main_arg2 : IVec S128x2048 32) : IVec S_ 1 :=
  let main_v0 : FVec F S262144x64 .f32 := Host.absf main_arg0
  let main_cst : FVec F S_ .f32 := constant S_ .f32 0x7F800000#32
  let main_v1 : FVec F S262144x64 .f32 := broadcastInDim S262144x64 ![] bcast_S_S262144x64 main_cst
  let main_v2 : IVec S262144x64 1 := cmpf .olt main_v0 main_v1
  let main_c : IVec S_ 1 := constantI S_ 1 1#1
  let main_v3 : IVec S_ 1 := (fun x v => Host.reduce IntOp.andi x v reducesTo_S262144x64_S_d0_1 h_S_) main_v2 main_c
  let main_v4 : FVec F S262144x64 .f32 := Host.absf main_arg1
  let main_cst_0 : FVec F S_ .f32 := constant S_ .f32 0x7F800000#32
  let main_v5 : FVec F S262144x64 .f32 := broadcastInDim S262144x64 ![] bcast_S_S262144x64 main_cst_0
  let main_v6 : IVec S262144x64 1 := cmpf .olt main_v4 main_v5
  let main_c_1 : IVec S_ 1 := constantI S_ 1 1#1
  let main_v7 : IVec S_ 1 := (fun x v => Host.reduce IntOp.andi x v reducesTo_S262144x64_S_d0_1 h_S_) main_v6 main_c_1
  let main_v8 : IVec S_ 1 := andi main_v3 main_v7
  main_v8
-- ==== Kernel.lean ====
abbrev S262144x64 : Shape := ⟨2, ![262144, 64]⟩
abbrev S128x2048 : Shape := ⟨2, ![128, 2048]⟩
abbrev S128x2048x64 : Shape := ⟨3, ![128, 2048, 64]⟩
abbrev S2048x64 : Shape := ⟨2, ![2048, 64]⟩
abbrev S1x512x64 : Shape := ⟨3, ![1, 512, 64]⟩
abbrev S512x64 : Shape := ⟨2, ![512, 64]⟩
abbrev S512 : Shape := ⟨1, ![512]⟩
abbrev S512x1 : Shape := ⟨2, ![512, 1]⟩
abbrev S1x1 : Shape := ⟨2, ![1, 1]⟩
abbrev S2048 : Shape := ⟨1, ![2048]⟩
abbrev S2048x1 : Shape := ⟨2, ![2048, 1]⟩
abbrev S1 : Shape := ⟨1, ![1]⟩
abbrev S_ : Shape := ⟨0, ![]⟩

abbrev nBuf : Space → Nat
  | .hbm => 12
  | .vmem => 11
  | .smem => 0
  | _ => 0

abbrev bufTy : (tb : Table) → Fin (tcTables nBuf tb) → BufTy
  | .hbm, ⟨0, _⟩ => ⟨S262144x64, .f32⟩
  | .hbm, ⟨1, _⟩ => ⟨S262144x64, .f32⟩
  | .hbm, ⟨2, _⟩ => ⟨S128x2048, .i32⟩
  | .hbm, ⟨3, _⟩ => ⟨S128x2048x64, .f32⟩
  | .hbm, ⟨4, _⟩ => ⟨S128x2048x64, .f32⟩
  | .hbm, ⟨5, _⟩ => ⟨S2048x64, .f32⟩
  | .hbm, ⟨6, _⟩ => ⟨S2048x64, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S1x512x64, .f32⟩
  | .local _ .vmem, ⟨1, _⟩ => ⟨S1x512x64, .f32⟩
  | .local _ .vmem, ⟨2, _⟩ => ⟨S1x512x64, .f32⟩
  | .local _ .vmem, ⟨3, _⟩ => ⟨S1x512x64, .f32⟩
  | .local _ .vmem, ⟨4, _⟩ => ⟨S512x64, .f32⟩
  | .local _ .vmem, ⟨5, _⟩ => ⟨S512x64, .f32⟩
  | .local _ .vmem, ⟨6, _⟩ => ⟨S512x64, .f32⟩
  | .local _ .vmem, ⟨7, _⟩ => ⟨S512x64, .f32⟩
  | .local _ .vmem, ⟨8, _⟩ => ⟨S2048x64, .f32⟩
  | .local _ .vmem, ⟨9, _⟩ => ⟨S2048x64, .f32⟩
  | .local _ .vmem, ⟨10, _⟩ => ⟨S1x1, .f32⟩
  | _, _ => ⟨S262144x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem2_0 : DmaSem sig := 10

abbrev nD : Nat := 1
abbrev τ : Topo := Topo.v7x

variable {F : FTy → Type} [FloatOps F]

abbrev grid0 : Pipeline.Grid := ⟨2, ![4, 128], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2048x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2048x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  shapeCasts_S262144x64_S128x2048x64 : S262144x64.ShapeCasts S128x2048x64
  inb_S512x64_S512x64_0_0 : ∀ a, (![0, 0] : Fin 2 → Nat) a + S512x64.size a ≤ S512x64.size a
  h_S512x64 : 0 < S512x64.numel
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  reduces_S512x64_S512 : S512x64.Reduces [1] S512
  shapeCasts_S512_S512x1 : S512.ShapeCasts S512x1
  broadcasts_S512x1_S512x64 : S512x1.Broadcasts S512x64
  shapeCasts_S512x64_S512x64 : S512x64.ShapeCasts S512x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  reduces_S2048x64_S2048 : S2048x64.Reduces [1] S2048
  shapeCasts_S2048_S2048x1 : S2048.ShapeCasts S2048x1
  reduces_S2048x1_S1 : S2048x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S128x2048x64.size a
  hwx0_0 : ∀ i : grid0.Coords, EltTy.bits .f32 = 32 ∨ (Rect.block (s := S128x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x64.size a ≤ S128x2048x64.size a
  hwx0_1 : ∀ i : grid0.Coords, EltTy.bits .f32 = 32 ∨ (Rect.block (s := S128x2048x64) S1x512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S2048x64.size a
  hwx0_2 : ∀ i : grid0.Coords, EltTy.bits .f32 = 32 ∨ (Rect.block (s := S2048x64) S512x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x64.size a ≤ S2048x64.size a
  hwx0_3 : ∀ i : grid0.Coords, EltTy.bits .f32 = 32 ∨ (Rect.block (s := S2048x64) S512x64.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2048x64.size a ≤ S2048x64.size a
  hwx1_0 : ∀ i : grid1.Coords, EltTy.bits .f32 = 32 ∨ (Rect.block (s := S2048x64) S2048x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x64.size a ≤ S2048x64.size a
  hwx1_1 : ∀ i : grid1.Coords, EltTy.bits .f32 = 32 ∨ (Rect.block (s := S2048x64) S2048x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)

variable [Facts₀]

abbrev win0_0 : Pipeline.Window sig grid0 :=
  Pipeline.Window.ofSpec (Memref.whole main_v0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S512x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S512x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2_0) S2048x64.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v2_1) S2048x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S262144x64 : Shape := ⟨2, ![262144, 64]⟩
abbrev S128x2048 : Shape := ⟨2, ![128, 2048]⟩
abbrev S_ : Shape := ⟨0, ![]⟩
abbrev S262144 : Shape := ⟨1, ![262144]⟩
abbrev S262144x1 : Shape := ⟨2, ![262144, 1]⟩
abbrev S128x2048x64 : Shape := ⟨3, ![128, 2048, 64]⟩
abbrev S2048x128x64 : Shape := ⟨3, ![2048, 128, 64]⟩
abbrev S2048x128x128 : Shape := ⟨3, ![2048, 128, 128]⟩

abbrev nBuf : Space → Nat
  | .hbm => 33
  | .vmem => 0
  | .smem => 0
  | _ => 0

abbrev bufTy : (tb : Table) → Fin (tcTables nBuf tb) → BufTy
  | .hbm, ⟨0, _⟩ => ⟨S262144x64, .f32⟩
  | .hbm, ⟨1, _⟩ => ⟨S262144x64, .f32⟩
  | .hbm, ⟨2, _⟩ => ⟨S128x2048, .i32⟩
  | .hbm, ⟨3, _⟩ => ⟨S262144x64, .f32⟩
  | .hbm, ⟨4, _⟩ => ⟨S_, .f32⟩
  | .hbm, ⟨5, _⟩ => ⟨S262144, .f32⟩
  | .hbm, ⟨6, _⟩ => ⟨S262144x1, .f32⟩
  | .hbm, ⟨7, _⟩ => ⟨S262144x1, .f32⟩
  | .hbm, ⟨8, _⟩ => ⟨S_, .f32⟩
  | .hbm, ⟨9, _⟩ => ⟨S262144x1, .f32⟩
  | .hbm, ⟨10, _⟩ => ⟨S262144x1, .f32⟩
  | .hbm, ⟨11, _⟩ => ⟨S262144x64, .f32⟩
  | .hbm, ⟨12, _⟩ => ⟨S262144x64, .f32⟩
  | .hbm, ⟨13, _⟩ => ⟨S128x2048x64, .f32⟩
  | .hbm, ⟨14, _⟩ => ⟨S2048x128x64, .f32⟩
  | .hbm, ⟨15, _⟩ => ⟨S262144x64, .f32⟩
  | .hbm, ⟨16, _⟩ => ⟨S_, .f32⟩
  | .hbm, ⟨17, _⟩ => ⟨S262144, .f32⟩
  | .hbm, ⟨18, _⟩ => ⟨S262144x1, .f32⟩
  | .hbm, ⟨19, _⟩ => ⟨S262144x1, .f32⟩
  | .hbm, ⟨20, _⟩ => ⟨S_, .f32⟩
  | .hbm, ⟨21, _⟩ => ⟨S262144x1, .f32⟩
  | .hbm, ⟨22, _⟩ => ⟨S262144x1, .f32⟩
  | .hbm, ⟨23, _⟩ => ⟨S262144x64, .f32⟩
  | .hbm, ⟨24, _⟩ => ⟨S262144x64, .f32⟩
  | .hbm, ⟨25, _⟩ => ⟨S128x2048x64, .f32⟩
  | .hbm, ⟨26, _⟩ => ⟨S2048x128x64, .f32⟩
  | .hbm, ⟨27, _⟩ => ⟨S2048x128x128, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | _, _ => ⟨S262144x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call1_v0 : Ref sig .tc := ⟨.hbm, 15, rfl⟩
abbrev main_call1_cst : Ref sig .tc := ⟨.hbm, 16, rfl⟩
abbrev main_call1_v1 : Ref sig .tc := ⟨.hbm, 17, rfl⟩
abbrev main_call1_v2 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩

abbrev nD : Nat := 1
abbrev τ : Topo := Topo.v7x

variable {F : FTy → Type} [FloatOps F]

class Facts₀ : Prop where
  reducesTo_S262144x64_S262144_d1 : S262144x64.ReducesTo [1] S262144
  h_S_ : 0 < S_.numel
  bcast_S262144_S262144x1_0 : S262144.BroadcastsInDim S262144x1 (![0] : Fin 1 → Fin S262144x1.rank)
  bcast_S_S262144x1 : S_.BroadcastsInDim S262144x1 (![] : Fin 0 → Fin S262144x1.rank)
  bcast_S262144x1_S262144x64_0_1 : S262144x1.BroadcastsInDim S262144x64 (![0, 1] : Fin 2 → Fin S262144x64.rank)
  shapeCasts_S262144x64_S128x2048x64 : S262144x64.ShapeCasts S128x2048x64
  transposes_S128x2048x64_S2048x128x64_1_0_2 : S128x2048x64.Transposes [1, 0, 2] S2048x128x64
  reducesTo_S2048x128x128_S_d0_1_2 : S2048x128x128.ReducesTo [0, 1, 2] S_
  dot_S2048x128x64_S2048x128x64_S2048x128x128_2_2_1_1_0_0_wf : DotDims.WF S2048x128x64 S2048x128x64 S2048x128x128 [2] [2] [1] [1] [0] [0]

variable [Facts₀]

def dot_S2048x128x64_S2048x128x64_S2048x128x128_2_2_1_1_0_0 : DotDims S2048x128x64 S2048x128x64 S2048x128x128 where
  lhsContracting := [2]
  rhsContracting := [2]
  lhsNonContracting := [1]
  rhsNonContracting := [1]
  lhsBatch := [0]
  rhsBatch := [0]
  wf := dot_S2048x128x64_S2048x128x64_S2048x128x128_2_2_1_1_0_0_wf

class Facts : Prop extends Facts₀ where

variable [Facts]
-- ==== Proof.Spec.lean ====
/-
  The loss both programs compute, as two formulas over the extended reals, of the two [262144, 64] matrices p and z.
  Row t·2048 + n of a matrix is trajectory n at time t (128 times, 2048 trajectories, 64 features). Each row is scaled
  to unit length: divided by its Euclidean norm, the norm floored at the f32 word nearest 1e-12. Write u(x, t, n, d)
  for entry d of the scaled row of time t and trajectory n.

    kernel:     ( -( Σ_n Σ_d (Σ_t u(p,t,n,d)) · (Σ_s u(z,s,n,d)) ) ) / 2^25
    reference:  -( ( Σ_n Σ_t Σ_s Σ_d u(p,t,n,d) · u(z,s,n,d) ) / 2^25 )

  The two are equal when every scaled entry is a real number (a product of two sums is the sum of the products only
  away from the infinities), which holds when every entry of p and z is real.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- A [262144, 64] matrix of extended reals. -/
abbrev Mat : Type := (⟨2, ![262144, 64]⟩ : Shape).Idx → EReal

/-- The floor under a row's norm: the f32 word nearest 1e-12. -/
def floorWord : EReal := Ideal.ofBits .f32 0x2B8CBCCC#32

/-- The number of (trajectory, time, time) triples, 2048 · 128 · 128 = 2^25, as its f32 word. -/
def countWord : EReal := Ideal.ofBits .f32 0x4C000000#32

/-- The Euclidean norm of a row of 64 entries, floored. -/
def clampedNorm (v : Fin 64 → EReal) : EReal := max (Ideal.sqrt (∑ k : Fin 64, v k * v k)) floorWord

/-- Entry `d` of a row scaled to unit length. -/
def unitEntry (v : Fin 64 → EReal) (d : Fin 64) : EReal := Ideal.div (v d) (clampedNorm v)

/-- The matrix row holding trajectory `n` at time `t`. -/
def rowOf (t : Fin 128) (n : Fin 2048) : Fin 262144 :=
  ⟨t.val * 2048 + n.val, by have := t.isLt; have := n.isLt; omega⟩

/-- That row's 64 entries. -/
def rowAt (x : Mat) (t : Fin 128) (n : Fin 2048) : Fin 64 → EReal := fun k => x (ix2 (rowOf t n) k)

/-- u(x, t, n, d): entry `d` of the scaled row of time `t`, trajectory `n`. -/
def unitAt (x : Mat) (t : Fin 128) (n : Fin 2048) (d : Fin 64) : EReal := unitEntry (rowAt x t n) d

/-- A trajectory's scaled rows summed over time, entry by entry. -/
def timeSum (x : Mat) (n : Fin 2048) (d : Fin 64) : EReal := ∑ t : Fin 128, unitAt x t n d

/-- The kernel's total: per trajectory, the inner product of the two time sums. -/
def factoredTotal (p z : Mat) : EReal := ∑ n : Fin 2048, ∑ d : Fin 64, timeSum p n d * timeSum z n d

/-- The reference's total: per trajectory, every pair of times, the inner product of the two scaled rows. -/
def pairTotal (p z : Mat) : EReal :=
  ∑ n : Fin 2048, ∑ t : Fin 128, ∑ s : Fin 128, ∑ d : Fin 64, unitAt p t n d * unitAt z s n d

/-- What the kernel returns. -/
def kernelLoss (p z : Mat) : EReal := Ideal.div (-(factoredTotal p z)) countWord

/-- What the reference returns. -/
def referenceLoss (p z : Mat) : EReal := -(Ideal.div (pairTotal p z) countWord)

end Cert.Spec

end
-- ==== Proof.Algebra.lean ====
/-
  The two loss formulas of the specification agree when every entry of both matrices is a real number.

  Every scaled entry is then a real number: a row's sum of squares is a nonnegative real, its square root is a real,
  the floor under the norm is a positive real, so the floored norm is a positive real and the division is the
  product with a real reciprocal. Over the reals a product of two finite sums is the sum of the products, and the
  order of finite summation does not matter, so the kernel's factored total equals the reference's total over pairs
  of times. Dividing by the nonzero real count commutes with negation.
-/
import proofs.«153380_j13872744366785_1_alg».proof.Proof.Spec
import Mathlib.Data.EReal.Basic
import Mathlib.Data.EReal.Operations
import Mathlib.Data.EReal.Inv
import Mathlib.Algebra.BigOperators.Ring.Finset

noncomputable section

namespace Cert.Spec

open Idealize.ShloMosaic Idealize.ShloMosaic.ValueIdx

/-! ### The two constant words as real numbers -/

/-- The floor under a row's norm is a positive real number: sign 0, exponent field 87, fraction field 834764. -/
theorem floorWord_real : ∃ c : ℝ, 0 < c ∧ floorWord = (c : EReal) := by
  refine ⟨(2 ^ 23 + 834764 : ℕ) * (2 : ℝ) ^ ((87 : Int) - (2 ^ (8 - 1) - 1) - 23), by positivity, ?_⟩
  show Ideal.ofBits .f32 0x2B8CBCCC#32 = _
  simp [Ideal.ofBits, Ideal.ieee, -EReal.coe_mul]

/-- The count of triples is a nonzero real number: sign 0, exponent field 152, fraction field 0, that is 2^25. -/
theorem countWord_real : ∃ c : ℝ, c ≠ 0 ∧ countWord = (c : EReal) := by
  refine ⟨(2 ^ 23 + 0 : ℕ) * (2 : ℝ) ^ ((152 : Int) - (2 ^ (8 - 1) - 1) - 23), by positivity, ?_⟩
  show Ideal.ofBits .f32 0x4C000000#32 = _
  simp [Ideal.ofBits, Ideal.ieee, -EReal.coe_mul]

/-! ### The coercion of the reals through finite sums -/

/-- The coercion of a finite sum of reals is the sum of the coercions. -/
theorem coe_finsum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ### Every scaled entry is real -/

/-- A row of reals scaled to unit length has real entries: the floored norm is a positive real, and dividing by
    it multiplies by its reciprocal. -/
theorem unitEntry_real (v : Fin 64 → EReal) (hv : ∀ k, ∃ r : ℝ, v k = (r : EReal)) (d : Fin 64) :
    ∃ r : ℝ, unitEntry v d = (r : EReal) := by
  choose w hw using hv
  obtain ⟨c, hc, hfloor⟩ := floorWord_real
  have hsq : (∑ k : Fin 64, v k * v k) = ((∑ k : Fin 64, w k * w k : ℝ) : EReal) := by
    rw [coe_finsum]
    exact Finset.sum_congr rfl (fun k _ => by rw [hw k, EReal.coe_mul])
  have hnn : ¬ (∑ k : Fin 64, w k * w k) < 0 :=
    not_lt.mpr (Finset.sum_nonneg (fun k _ => mul_self_nonneg (w k)))
  have hnorm : clampedNorm v = ((max (Real.sqrt (∑ k : Fin 64, w k * w k)) c : ℝ) : EReal) := by
    show max (Ideal.sqrt (∑ k : Fin 64, v k * v k)) floorWord = _
    rw [hsq, Ideal.sqrt_coe, if_neg hnn, hfloor]
    exact (EReal.coe_strictMono.monotone.map_max).symm
  have hpos : max (Real.sqrt (∑ k : Fin 64, w k * w k)) c ≠ 0 :=
    ne_of_gt (lt_of_lt_of_le hc (le_max_right _ _))
  refine ⟨w d * (1 / max (Real.sqrt (∑ k : Fin 64, w k * w k)) c), ?_⟩
  show Ideal.div (v d) (clampedNorm v) = _
  rw [hnorm, Ideal.div_coe hpos, hw d, EReal.coe_mul]

/-- With every entry of the matrix real, every scaled entry is real. -/
theorem unitAt_real (x : Mat) (hx : ∀ i, ∃ r : ℝ, x i = (r : EReal))
    (t : Fin 128) (n : Fin 2048) (d : Fin 64) : ∃ r : ℝ, unitAt x t n d = (r : EReal) :=
  unitEntry_real (rowAt x t n) (fun k => hx (ix2 (rowOf t n) k)) d

/-! ### The identity over the reals -/

/-- Over the reals, the inner product of two sums over time is the sum over every pair of times of the inner
    products: the product of two finite sums is the sum of the products, and finite sums commute. -/
theorem sum_prod_sums {α β : Type*} [Fintype α] [Fintype β] (a b : α → β → ℝ) :
    ∑ d : β, (∑ t : α, a t d) * (∑ s : α, b s d) = ∑ t : α, ∑ s : α, ∑ d : β, a t d * b s d :=
  calc ∑ d : β, (∑ t : α, a t d) * (∑ s : α, b s d)
      = ∑ d : β, ∑ t : α, ∑ s : α, a t d * b s d :=
        Finset.sum_congr rfl (fun d _ => Finset.sum_mul_sum _ _ _ _)
    _ = ∑ t : α, ∑ d : β, ∑ s : α, a t d * b s d := Finset.sum_comm
    _ = ∑ t : α, ∑ s : α, ∑ d : β, a t d * b s d :=
        Finset.sum_congr rfl (fun t _ => Finset.sum_comm)

/-! ### The two totals agree -/

/-- Trajectory by trajectory, both totals are the coercion of one real number. -/
theorem factoredTotal_eq_pairTotal (p z : Mat)
    (hp : ∀ i, ∃ r : ℝ, p i = (r : EReal)) (hz : ∀ i, ∃ r : ℝ, z i = (r : EReal)) :
    factoredTotal p z = pairTotal p z := by
  choose A hA using unitAt_real p hp
  choose B hB using unitAt_real z hz
  show (∑ n : Fin 2048, ∑ d : Fin 64, (∑ t : Fin 128, unitAt p t n d) * (∑ s : Fin 128, unitAt z s n d))
      = ∑ n : Fin 2048, ∑ t : Fin 128, ∑ s : Fin 128, ∑ d : Fin 64, unitAt p t n d * unitAt z s n d
  refine Finset.sum_congr rfl (fun n _ => ?_)
  have hL : (∑ d : Fin 64, (∑ t : Fin 128, unitAt p t n d) * (∑ s : Fin 128, unitAt z s n d))
      = ((∑ d : Fin 64, (∑ t : Fin 128, A t n d) * (∑ s : Fin 128, B s n d) : ℝ) : EReal) := by
    rw [coe_finsum]
    refine Finset.sum_congr rfl (fun d _ => ?_)
    rw [EReal.coe_mul, coe_finsum, coe_finsum]
    simp only [hA, hB]
  have hR : (∑ t : Fin 128, ∑ s : Fin 128, ∑ d : Fin 64, unitAt p t n d * unitAt z s n d)
      = ((∑ t : Fin 128, ∑ s : Fin 128, ∑ d : Fin 64, A t n d * B s n d : ℝ) : EReal) := by
    rw [coe_finsum]
    refine Finset.sum_congr rfl (fun t _ => ?_)
    rw [coe_finsum]
    refine Finset.sum_congr rfl (fun s _ => ?_)
    rw [coe_finsum]
    refine Finset.sum_congr rfl (fun d _ => ?_)
    rw [EReal.coe_mul, hA, hB]
  rw [hL, hR, sum_prod_sums (fun t d => A t n d) (fun s d => B s n d)]

/-! ### The two losses agree -/

theorem kernelLoss_eq_referenceLoss (p z : Mat)
    (hp : ∀ i, ∃ r : ℝ, p i = (r : EReal)) (hz : ∀ i, ∃ r : ℝ, z i = (r : EReal)) :
    kernelLoss p z = referenceLoss p z := by
  obtain ⟨c, hc, hcount⟩ := countWord_real
  show Ideal.div (-(factoredTotal p z)) countWord = -(Ideal.div (pairTotal p z) countWord)
  rw [factoredTotal_eq_pairTotal p z hp hz, hcount, Ideal.div_coe hc, Ideal.div_coe hc, EReal.neg_mul]

end Cert.Spec

end
-- ==== Proof.Finite.lean ====
/-
  From the printed finiteness precondition to "every entry is a real number".
  The precondition is the conjunction of two tests, one per matrix: every entry's absolute value lies strictly
  below the f32 word 0x7F800000, which denotes +∞. Over the extended reals the absolute value is max x (-x), so the
  test excludes exactly the two infinities, and what is left is a real.
-/
import proofs.«153380_j13872744366785_1_alg».proof.Pre_finite_inputs
import Idealize.ShloMosaic.Lib.ReduceAll
import Idealize.ShloMosaic.PureOps.Ideal

namespace Cert.Finite
open Idealize.ShloMosaic

/-- The f32 word 0x7F800000 (sign 0, exponent all ones, significand 0) denotes +∞. -/
theorem inf_word : Ideal.ofBits .f32 0x7F800000#32 = (⊤ : EReal) := by
  simp [Ideal.ofBits, Ideal.ieee]

/-- An extended real whose absolute value max x (-x) is strictly below +∞ is a real:
    at +∞ the maximum is +∞ itself, at -∞ it is -(-∞) = +∞. -/
theorem real_of_abs_lt_top (x : EReal) (h : max x (-x) < ⊤) : ∃ r : ℝ, x = (r : EReal) := by
  induction x using EReal.rec with
  | bot => simp at h
  | coe r => exact ⟨r, rfl⟩
  | top => simp at h

/-- The ordered "less than" comparison is the bit of the strict order: if it came out 1, x < y.
    Were x < y false, the bit would be 0, and 0 is not 1. -/
theorem lt_of_cmp_olt (x y : EReal) (h : Ideal.cmp .olt x y = 1#1) : x < y := by
  by_contra hn
  have h0 : Ideal.cmp .olt x y = 0#1 := by
    show BitVec.ofBool (decide (x < y)) = 0#1
    rw [decide_eq_false hn]; rfl
  rw [h0] at h
  exact absurd h (by decide)

/-- The result of a reduction over all axes has exactly one index: a rank-0 shape has no coordinate to differ in. -/
theorem idx_subsingleton : Subsingleton Cert.Pre_finite_inputs.S_.Idx := ⟨fun a b => funext fun d => d.elim0⟩

/-- One test read back: if the conjunction over all entries of |x| < +∞ came out 1, every entry is a real.
    The conjunction being 1 makes every conjunct 1; a conjunct is the comparison of max x (-x) with the
    broadcast scalar, which reads +∞ at every index. -/
theorem real_of_all [Cert.Pre_finite_inputs.Facts]
    (a : FVec Ideal Cert.Pre_finite_inputs.S262144x64 .f32) (init : IVec Cert.Pre_finite_inputs.S_ 1)
    (j : Cert.Pre_finite_inputs.S_.Idx)
    (e : Host.reduce IntOp.andi
          (cmpf .olt (Host.absf a)
            (broadcastInDim Cert.Pre_finite_inputs.S262144x64 ![] Cert.Pre_finite_inputs.Facts.bcast_S_S262144x64
              (constant Cert.Pre_finite_inputs.S_ .f32 0x7F800000#32)))
          init Cert.Pre_finite_inputs.Facts.reducesTo_S262144x64_S_d0_1 Cert.Pre_finite_inputs.Facts.h_S_ j = 1#1)
    (i : Cert.Pre_finite_inputs.S262144x64.Idx) : ∃ r : ℝ, a i = (r : EReal) := by
  haveI := idx_subsingleton
  have hi := Host.reduce_andi_all _ _ _ _ j e i
  dsimp only [cmpf, Host.absf, broadcastInDim, constant] at hi
  change Ideal.cmp .olt (max (a i) (-(a i))) (Ideal.ofBits .f32 0x7F800000#32) = 1#1 at hi
  rw [inf_word] at hi
  exact real_of_abs_lt_top (a i) (lt_of_cmp_olt _ _ hi)

/-- The precondition holds only where every entry of both matrices is a real number. -/
theorem real_of_pre [Cert.Pre_finite_inputs.Facts]
    (a0 a1 : FVec Ideal Cert.Pre_finite_inputs.S262144x64 .f32) (a2 : IVec Cert.Pre_finite_inputs.S128x2048 32)
    (h : Cert.Pre_finite_inputs.fn (F := Ideal) a0 a1 a2 = fun _ => 1#1) :
    (∀ i, ∃ r : ℝ, a0 i = (r : EReal)) ∧ (∀ i, ∃ r : ℝ, a1 i = (r : EReal)) := by
  have h0 := congrFun h (fun d => d.elim0)
  dsimp only [Cert.Pre_finite_inputs.fn, andi] at h0
  obtain ⟨h3, h7⟩ := IntOp.andi_eq_one.1 h0
  exact ⟨fun i => real_of_all a0 _ _ h3 i, fun i => real_of_all a1 _ _ h7 i⟩

end Cert.Finite
-- ==== Proof.RefValue.lean ====
/-
  The reference program, read one operation at a time, computes the reference formula of the specification.

  Each of the two matrices is scaled row by row: a row's entries are squared and summed from the zero word (which is 0),
  the square root is taken, floored by the maximum with the word nearest 1e-12, and every entry of the row is divided by
  the result. The scaled matrix is reshaped to [128, 2048, 64] (row t·2048 + n is time t, trajectory n) and its first
  two axes are exchanged, so entry (n, t, d) of the operand of the contraction is u(x, t, n, d). The contraction over
  the last axis with the trajectory as batch axis gives, at (n, t, s), Σ_d u(p, t, n, d) · u(z, s, n, d); the total
  sum over the rank-3 index set is the triple sum over its coordinates; dividing by the word of 2^25 and negating is
  the reference's loss.
-/
import proofs.«153380_j13872744366785_1_alg».proof.Proof.Gen.ReferenceIdeal.Read
import proofs.«153380_j13872744366785_1_alg».proof.Proof.Spec

noncomputable section

namespace Cert.RefValue

open Idealize.ShloMosaic Idealize.ShloMosaic.ValueIdx Cert.ReferenceIdeal Cert.ReferenceIdeal.Read

/-! ## A sum over a rank-3 index set is the triple sum over the coordinates -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun q := ix3 q.1 q.2.1 q.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The indices the operations read at, by coordinates -/

/-- The row sum of squares of row `r` reads entry `k` of row `r`. -/
theorem idx_sq (r : Fin 262144) (c : Fin 1) (k : Fin 64) :
    idx_main_call0_v1 (idx_main_call0_v2 (ix2 r c)) k = ix2 r k := by
  funext a; match a with | ⟨0, _⟩ => rfl | ⟨1, _⟩ => rfl

/-- Every entry of row `r` is divided by the one norm of row `r`. -/
theorem idx_norm (r : Fin 262144) (d : Fin 64) : idx_main_v3 (ix2 r d) = ix2 r (0 : Fin 1) := by
  funext a; match a with | ⟨0, _⟩ => rfl | ⟨1, _⟩ => rfl

/-- Entry (n, t, d) after the reshape and the exchange of the first two axes is entry `d` of row t·2048 + n. -/
theorem idx_row (n : Fin 2048) (t : Fin 128) (d : Fin 64) :
    idx_main_v5 (idx_main_v6 (ix3 n t d)) = ix2 (Cert.Spec.rowOf t n) d := by
  have hd := d.isLt
  funext a
  match a with
  | ⟨0, _⟩ => exact Fin.ext (show ((t.val * 2048 + n.val) * 64 + d.val) / 64 = t.val * 2048 + n.val by omega)
  | ⟨1, _⟩ => exact Fin.ext (show ((t.val * 2048 + n.val) * 64 + d.val) % 64 = d.val by omega)

/-- The contraction reads its left operand at (n, t, d) … -/
theorem idx_lhs (n : Fin 2048) (t s : Fin 128) (d : Fin 64) : lidx_main_v14 (ix3 n t s) d = ix3 n t d := by
  funext a; match a with | ⟨0, _⟩ => rfl | ⟨1, _⟩ => rfl | ⟨2, _⟩ => rfl

/-- … and its right operand at (n, s, d). -/
theorem idx_rhs (n : Fin 2048) (t s : Fin 128) (d : Fin 64) : ridx_main_v14 (ix3 n t s) d = ix3 n s d := by
  funext a; match a with | ⟨0, _⟩ => rfl | ⟨1, _⟩ => rfl | ⟨2, _⟩ => rfl

/-! ## The scaled rows -/

/-- The floored norm the program computes for row `r` is the specification's. -/
theorem norm_eq (x : (⟨S262144x64, .f32⟩ : BufTy).Contents (Elt Ideal)) (r : Fin 262144) (c : Fin 1) :
    val_main_v2 (F := Ideal) x (ix2 r c) = Cert.Spec.clampedNorm (fun k => x (ix2 r k)) := by
  rw [val_main_v2_apply, val_main_v0_apply, val_main_call0_v2_apply, val_main_call0_v1_apply, val_main_v1_apply,
    val_main_cst_apply, val_main_call0_cst_apply]
  simp only [val_main_call0_v0_apply, idx_sq, Ideal.maximumf_def, Ideal.hostUnary_sqrt_def, Ideal.mulf_def,
    Ideal.ofBits_def, Ideal.ofBits_zero_f32, zero_add]
  rfl

/-- The second matrix goes through the same operations as the first. -/
theorem second_eq_first (x : (⟨S262144x64, .f32⟩ : BufTy).Contents (Elt Ideal)) :
    val_main_v13 (F := Ideal) x = val_main_v6 (F := Ideal) x := rfl

/-- Entry (n, t, d) of the contraction's operand is entry `d` of the scaled row of time `t`, trajectory `n`. -/
theorem unit_eq (x : (⟨S262144x64, .f32⟩ : BufTy).Contents (Elt Ideal)) (n : Fin 2048) (t : Fin 128) (d : Fin 64) :
    val_main_v6 (F := Ideal) x (ix3 n t d) = Cert.Spec.unitAt x t n d := by
  rw [val_main_v6_apply, val_main_v5_apply, idx_row, val_main_v4_apply, val_main_v3_apply, idx_norm, norm_eq]
  simp only [Ideal.hostDivf_def]
  rfl

/-! ## The total -/

/-- The sum of every entry of the contraction is the specification's sum over trajectories and pairs of times. -/
theorem total_eq (p z : (⟨S262144x64, .f32⟩ : BufTy).Contents (Elt Ideal)) :
    ∑ j : S2048x128x128.Idx, val_main_v14 (F := Ideal) p z j = Cert.Spec.pairTotal p z := by
  rw [sum_idx3]
  unfold Cert.Spec.pairTotal
  refine Finset.sum_congr rfl fun n _ => Finset.sum_congr rfl fun t _ => Finset.sum_congr rfl fun s _ => ?_
  rw [val_main_v14_apply]
  refine Finset.sum_congr rfl fun d _ => ?_
  rw [idx_lhs, idx_rhs, second_eq_first, unit_eq, unit_eq]

/-- The reference program's result is the reference's loss of the specification. -/
theorem reference_value (p z : (⟨S262144x64, .f32⟩ : BufTy).Contents (Elt Ideal)) :
    Cert.ReferenceIdeal.Read.val_main_v17 (F := Ideal) p z = fun _ => Cert.Spec.referenceLoss p z := by
  funext i
  rw [val_main_v17_apply, val_main_v16_apply, val_main_v15_apply, val_main_cst_1_apply, val_main_cst_2_apply, total_eq]
  simp only [Ideal.hostNegf_def, Ideal.negf_def, Ideal.hostDivf_def, Ideal.ofBits_def, Ideal.ofBits_zero_f32, zero_add]
  rfl

end Cert.RefValue

end
-- ==== Proof.Payload.lean ====
/-
  The four values the kernel function stores, read at an index, at the extended reals.

  The two blocks stored at the first time step are zero everywhere. The two accumulator updates are, at row r and
  lane d, the accumulator's entry plus entry d of row r of the loaded block scaled to unit length: the row divided by
  the larger of its Euclidean norm and the floor word.

  The update is one term over the block and the accumulator, the same for p and for z (stepValue); both printed
  payloads are that term by unfolding. Its reading at an index goes through the pointwise operations by computation
  and through each operation that moves indices by one small lemma: the leading unit axis dropped from the block, the
  identity cast of the accumulator, the sum over the lane axis, the sums set as a column, and the column spread over
  the lanes.
-/
import proofs.«153380_j13872744366785_1_alg».proof.Proof.Gen.KernelIdeal.Skeleton
import proofs.«153380_j13872744366785_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload
open Idealize.ShloMosaic Idealize.ShloMosaic.ValueIdx Cert.KernelIdeal Cert.KernelIdeal.Gen

/-! ## The operations that move indices, at an index given by coordinates -/

/-- A vector of a entries set as an [a, 1] column reads, at (i, u), the vector at i, whatever the unit coordinate u. -/
theorem shapeCast_a_a1_apply {α : Type} {a : ℕ} (v : (⟨1, ![a]⟩ : Shape).Idx → α)
    (h : (⟨1, ![a]⟩ : Shape).ShapeCasts ⟨2, ![a, 1]⟩) (i : Fin a) (u : Fin 1) :
    shapeCast ⟨2, ![a, 1]⟩ v h (ix2 i u) = v (ix1 i) :=
  shapeCast_apply v h _ _ (by
    have hu : u.val = 0 := by omega
    rw [Shape.rowMajor_val_two, Shape.rowMajor_val_one]
    show i.val = i.val * 1 + u.val
    rw [hu, Nat.mul_one, Nat.add_zero])

/-- An [a, 1] column spread over b lanes reads, at (i, c), the column at (i, 0). -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (c : Fin b) :
    broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- The sum over the lane axis of an [a, b] block reads, at row i, the sum over the lanes of row i. -/
theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction (F := Ideal) .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext ax
  match ax with
  | ⟨0, _⟩ => rfl
  | ⟨1, _⟩ => rfl

/-! ## The floored norm and the update as terms -/

/-- The floored norm of every row of a [512, 64] block, spread over the lanes, as the kernel builds it. -/
def normBlock (v : FVec Ideal S512x64 .f32) : FVec Ideal S512x64 .f32 :=
  broadcastTo S512x64
    (maximumf
      (sqrt (shapeCast S512x1
        (multiReduction (F := Ideal) .add [1] S512 (mulf v v) 0x00000000#32 reduces_S512x64_S512 (.inl rfl) rfl)
        shapeCasts_S512_S512x1))
      (broadcast S512x1 (Scalar.ofBits (F := Ideal) .f32 0x2B8CBCCC#32)))
    broadcasts_S512x1_S512x64

/-- The accumulator plus the block's rows scaled to unit length, as the kernel builds it. -/
def stepValue (x : Vec Ideal S1x512x64 .f32) (acc : Vec Ideal S512x64 .f32) : FVec Ideal S512x64 .f32 :=
  addf (shapeCast S512x64 acc shapeCasts_S512x64_S512x64)
    (divf (shapeCast S512x64 x shapeCasts_S1x512x64_S512x64)
      (normBlock (shapeCast S512x64 x shapeCasts_S1x512x64_S512x64)))

/-- The payload of the store into the accumulator of p is that term. -/
theorem pay3_eq (x : Vec Ideal S1x512x64 .f32) (acc : Vec Ideal S512x64 .f32) : k0_pay3 x acc = stepValue x acc := rfl

/-- The payload of the store into the accumulator of z is the same term. -/
theorem pay4_eq (x : Vec Ideal S1x512x64 .f32) (acc : Vec Ideal S512x64 .f32) : k0_pay4 x acc = stepValue x acc := rfl

/-- The floored norm block at (r, d) is the floored norm of row r. -/
theorem normBlock_apply (v : FVec Ideal S512x64 .f32) (r : Fin 512) (d : Fin 64) :
    normBlock v (ix2 r d) = Cert.Spec.clampedNorm (fun κ => v (ix2 r κ)) := by
  unfold normBlock Cert.Spec.clampedNorm Cert.Spec.floorWord
  refine (broadcastTo_a1_ab_apply _ broadcasts_S512x1_S512x64 r d).trans ?_
  show max (Ideal.sqrt _) (Ideal.ofBits .f32 0x2B8CBCCC#32) = max (Ideal.sqrt _) (Ideal.ofBits .f32 0x2B8CBCCC#32)
  refine congrArg (fun t => max (Ideal.sqrt t) (Ideal.ofBits .f32 0x2B8CBCCC#32)) ?_
  refine (shapeCast_a_a1_apply _ shapeCasts_S512_S512x1 r (0 : Fin 1)).trans ?_
  exact laneSum_apply (mulf v v) reduces_S512x64_S512 (.inl rfl) rfl r

/-- The update at (r, d): the accumulator's entry plus entry d of row r of the block scaled to unit length. -/
theorem stepValue_apply (x : Vec Ideal S1x512x64 .f32) (acc : Vec Ideal S512x64 .f32) (r : Fin 512) (d : Fin 64) :
    stepValue x acc (ix2 r d)
      = (acc : S512x64.Idx → EReal) (ix2 r d)
        + Cert.Spec.unitEntry (fun κ => (x : S1x512x64.Idx → EReal) (ix3 (0 : Fin 1) r κ)) d := by
  have hx : ∀ κ : Fin 64, shapeCast S512x64 x shapeCasts_S1x512x64_S512x64 (ix2 r κ) = x (ix3 (0 : Fin 1) r κ) :=
    fun κ => shapeCast_1ab_ab_apply x shapeCasts_S1x512x64_S512x64 r κ
  have hacc : shapeCast S512x64 acc shapeCasts_S512x64_S512x64 (ix2 r d) = acc (ix2 r d) :=
    congrFun (shapeCast_self acc shapeCasts_S512x64_S512x64) (ix2 r d)
  have hn : normBlock (shapeCast S512x64 x shapeCasts_S1x512x64_S512x64) (ix2 r d)
      = Cert.Spec.clampedNorm (fun κ => x (ix3 (0 : Fin 1) r κ)) :=
    (normBlock_apply _ r d).trans (congrArg Cert.Spec.clampedNorm (funext hx))
  unfold stepValue Cert.Spec.unitEntry
  show shapeCast S512x64 acc shapeCasts_S512x64_S512x64 (ix2 r d)
      + Ideal.div (shapeCast S512x64 x shapeCasts_S1x512x64_S512x64 (ix2 r d))
          (normBlock (shapeCast S512x64 x shapeCasts_S1x512x64_S512x64) (ix2 r d)) = _
  rw [hacc, hx d, hn]

/-! ## The four payloads at an index -/

/-- The first zero block is zero everywhere. -/
theorem zero1_apply (j : S512x64.Idx) : (k0_pay1 (F := Ideal) : S512x64.Idx → EReal) j = 0 :=
  Ideal.ofBits_zero_f32

/-- The second zero block is zero everywhere. -/
theorem zero2_apply (j : S512x64.Idx) : (k0_pay2 (F := Ideal) : S512x64.Idx → EReal) j = 0 :=
  Ideal.ofBits_zero_f32

/-- The value stored into the accumulator of p, at (r, d). -/
theorem pay3_apply (x : Vec Ideal S1x512x64 .f32) (acc : Vec Ideal S512x64 .f32) (r : Fin 512) (d : Fin 64) :
    (k0_pay3 x acc : S512x64.Idx → EReal) (ix2 r d)
      = (acc : S512x64.Idx → EReal) (ix2 r d) + Cert.Spec.unitEntry (fun κ => (x : S1x512x64.Idx → EReal) (ix3 (0 : Fin 1) r κ)) d :=
  (congrFun (pay3_eq x acc) (ix2 r d)).trans (stepValue_apply x acc r d)

/-- The value stored into the accumulator of z, at (r, d). -/
theorem pay4_apply (x : Vec Ideal S1x512x64 .f32) (acc : Vec Ideal S512x64 .f32) (r : Fin 512) (d : Fin 64) :
    (k0_pay4 x acc : S512x64.Idx → EReal) (ix2 r d)
      = (acc : S512x64.Idx → EReal) (ix2 r d) + Cert.Spec.unitEntry (fun κ => (x : S1x512x64.Idx → EReal) (ix3 (0 : Fin 1) r κ)) d :=
  (congrFun (pay4_eq x acc) (ix2 r d)).trans (stepValue_apply x acc r d)

end Cert.KernelIdeal.Payload

end
-- ==== Proof.Accumulate.lean ====
/-
  The first kernel region read as values over the extended reals.
  Its grid is (row block g < 4, time s < 128), time the fast axis: point t has g = t / 128 and s = t % 128. At point t
  the body loads rows g·512 … g·512 + 511 of time s of the two [128, 2048, 64] arrays, scales each row to unit length
  (divides it by its Euclidean norm floored at the word nearest 1e-12), and adds the block to two [512, 64] accumulators,
  which it first sets to zero when s = 0. An accumulator is written back, to rows g·512 … g·512 + 511 of its [2048, 64]
  result array, only when s = 127. So each result array ends, at (n, d), at the sum over the 128 times s of entry d of
  the unit row (s, n): what a reset point leaves is its own addend (0 + it), every other point adds its addend to what
  the point before left, and the four write-backs tile the array by row blocks.
-/
import proofs.«153380_j13872744366785_1_alg».proof.Proof.Gen.KernelIdeal.Frame
import Idealize.ShloMosaic.Lib.Pipeline.Value
import Idealize.ShloMosaic.Lib.Tactic
import Idealize.ShloMosaic.Lib.ValueIdx
import proofs.«153380_j13872744366785_1_alg».proof.Proof.Spec
import proofs.«153380_j13872744366785_1_alg».proof.Proof.Payload

noncomputable section
open Idealize.ShloMosaic Idealize.ShloMosaic.TcCoe Idealize.SL.Sem
open Idealize.ShloMosaic.Pipeline (Dat)
namespace Cert.KernelIdeal.Accum
open Cert.KernelIdeal Cert.KernelIdeal.Gen
variable {F : FTy → Type} [FloatOps F]

/-- The zero offsets of a whole-buffer access, rank 2 and rank 3. -/
theorem hz2 : (![0, 0] : Fin 2 → Nat) = fun _ => 0 := funext fun a => by fin_cases a <;> rfl
theorem hz3 : (![0, 0, 0] : Fin 3 → Nat) = fun _ => 0 := funext fun a => by fin_cases a <;> rfl

/-! ## What the body leaves in each accumulator's staging buffer, case by case

Away from a reset the one store of each accumulator holds the update of what the buffer held; at a reset the buffer is
first set to the zero block, read back, and the update stored over it. -/

theorem out_B_2 (c : Dev nD) (i : grid0.Coords) (a2 : Memref sig .tc .vmem S1x512x64 .f32) (h2 : a2.IsWhole)
    (a3 : Memref sig .tc .vmem S1x512x64 .f32) (h3 : a3.IsWhole) (a4 : Memref sig .tc .vmem S512x64 .f32) (h4 : a4.IsWhole)
    (a5 : Memref sig .tc .vmem S512x64 .f32) (h5 : a5.IsWhole) (hc : ¬cond0_0 i)
    (x0 x1 : Vec F S1x512x64 .f32) (xo2 xo3 : Vec F S512x64 .f32) :
    out0_B_2 c i a2 h2 a3 h3 a4 h4 a5 h5 hc x0 x1 xo2 xo3 = k0_pay3 x0 xo2 := by
  unfold out0_B_2
  rw [View.read_writes_eq_canon _ _ _ (cover0_B_2 c i a2 h2 a3 h3 a4 h4 a5 h5 hc x0 x1 xo2 xo3)]
  unfold kernelRun0_B
  dsimp only
  sl_unfold_words
  rw [View.canon_unit_zero hz2]
  simp only [View.readAt_eq_ld, h2.read_unread, h4.read_unread, View.ld_unit_zero (S := S1x512x64) hz3,
    View.ld_unit_zero (S := S512x64) hz2]

theorem out_B_3 (c : Dev nD) (i : grid0.Coords) (a2 : Memref sig .tc .vmem S1x512x64 .f32) (h2 : a2.IsWhole)
    (a3 : Memref sig .tc .vmem S1x512x64 .f32) (h3 : a3.IsWhole) (a4 : Memref sig .tc .vmem S512x64 .f32) (h4 : a4.IsWhole)
    (a5 : Memref sig .tc .vmem S512x64 .f32) (h5 : a5.IsWhole) (hc : ¬cond0_0 i)
    (x0 x1 : Vec F S1x512x64 .f32) (xo2 xo3 : Vec F S512x64 .f32) :
    out0_B_3 c i a2 h2 a3 h3 a4 h4 a5 h5 hc x0 x1 xo2 xo3 = k0_pay4 x1 xo3 := by
  unfold out0_B_3
  rw [View.read_writes_eq_canon _ _ _ (cover0_B_3 c i a2 h2 a3 h3 a4 h4 a5 h5 hc x0 x1 xo2 xo3)]
  unfold kernelRun0_B
  dsimp only
  sl_unfold_words
  rw [View.canon_unit_zero hz2]
  simp only [View.readAt_eq_ld, h3.read_unread, h5.read_unread, View.ld_unit_zero (S := S1x512x64) hz3,
    View.ld_unit_zero (S := S512x64) hz2]

theorem out_A_2 (c : Dev nD) (i : grid0.Coords) (a2 : Memref sig .tc .vmem S1x512x64 .f32) (h2 : a2.IsWhole)
    (a3 : Memref sig .tc .vmem S1x512x64 .f32) (h3 : a3.IsWhole) (a4 : Memref sig .tc .vmem S512x64 .f32) (h4 : a4.IsWhole)
    (a5 : Memref sig .tc .vmem S512x64 .f32) (h5 : a5.IsWhole) (hc : cond0_0 i)
    (x0 x1 : Vec F S1x512x64 .f32) :
    out0_A_2 c i a2 h2 a3 h3 a4 h4 a5 h5 hc x0 x1 = k0_pay3 x0 (k0_pay1 (F := F)) := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S512x64) hz2, View.readCov_unit_zero (S := S512x64) _ hz2]
  simp only [View.readAt_eq_ld, h2.read_unread, View.ld_unit_zero (S := S1x512x64) hz3,
    View.ld_unit_zero (S := S512x64) hz2]

theorem out_A_3 (c : Dev nD) (i : grid0.Coords) (a2 : Memref sig .tc .vmem S1x512x64 .f32) (h2 : a2.IsWhole)
    (a3 : Memref sig .tc .vmem S1x512x64 .f32) (h3 : a3.IsWhole) (a4 : Memref sig .tc .vmem S512x64 .f32) (h4 : a4.IsWhole)
    (a5 : Memref sig .tc .vmem S512x64 .f32) (h5 : a5.IsWhole) (hc : cond0_0 i)
    (x0 x1 : Vec F S1x512x64 .f32) :
    out0_A_3 c i a2 h2 a3 h3 a4 h4 a5 h5 hc x0 x1 = k0_pay4 x1 (k0_pay2 (F := F)) := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S512x64) hz2, View.readCov_unit_zero (S := S512x64) _ hz2]
  simp only [View.readAt_eq_ld, h3.read_unread, View.ld_unit_zero (S := S1x512x64) hz3,
    View.ld_unit_zero (S := S512x64) hz2]

/-! ## The first region at the extended reals -/

section AtIdeal
open Idealize.ShloMosaic.ValueIdx Cert.KernelIdeal.Payload

variable (V : (c : Dev nD) → (b : Ref sig .tc) → Buf (Elt Ideal) ((c : Thread nD τ).loc b))

/-- Where each window's block sits at grid point `t`: the grid is (row block, time), time the fast axis. -/
theorem index_facts : ∀ t : Fin cfg0.N,
    win0_0.index t (0 : Fin 3) = t.val % 128 ∧ win0_0.index t (1 : Fin 3) = t.val / 128 ∧ win0_0.index t (2 : Fin 3) = 0
    ∧ win0_1.index t (0 : Fin 3) = t.val % 128 ∧ win0_1.index t (1 : Fin 3) = t.val / 128 ∧ win0_1.index t (2 : Fin 3) = 0
    ∧ win0_2.index t (0 : Fin 2) = t.val / 128 ∧ win0_2.index t (1 : Fin 2) = 0
    ∧ win0_3.index t (0 : Fin 2) = t.val / 128 ∧ win0_3.index t (1 : Fin 2) = 0 :=
  (by decide +kernel : ∀ t : Fin grid0.N, _)

theorem point_lt (t : Fin cfg0.N) : t.val < 512 := lt_of_lt_of_eq t.isLt (show cfg0.N = 512 from N_0)

/-- The time-`s` addend of trajectory row `n`, feature `d`: that row of the [128, 2048, 64] array scaled to unit
    length, read at `d`; zero outside the array, so that a sum over a range of naturals needs no bound. -/
def addend (y : S128x2048x64.Idx → EReal) (n : ℕ) (d : Fin 64) (s : ℕ) : EReal :=
  if h : s < 128 ∧ n < 2048 then Cert.Spec.unitEntry (fun κ => y (ix3 (⟨s, h.1⟩ : Fin 128) (⟨n, h.2⟩ : Fin 2048) κ)) d else 0

/-- Row `r` of p's block at point `t` is row (t / 128)·512 + r of time t % 128. -/
theorem pblk_apply (c : Dev nD) (t : Fin cfg0.N) (r : Fin 512) (κ : Fin 64) (hs : t.val % 128 < 128) (hn : t.val / 128 * 512 + r.val < 2048) :
    (iblk0 V c 0 t : S1x512x64.Idx → EReal) (ix3 (0 : Fin 1) r κ)
      = (V c main_v0 : S128x2048x64.Idx → EReal) (ix3 (⟨t.val % 128, hs⟩ : Fin 128) (⟨t.val / 128 * 512 + r.val, hn⟩ : Fin 2048) κ) := by
  unfold iblk0
  rw [View.read_apply]
  show (V c main_v0 : S128x2048x64.Idx → EReal) _ = _
  refine congrArg _ (funext fun a => Fin.ext ?_)
  obtain ⟨h0, h1, h2, -⟩ := index_facts t
  match a with
  | ⟨0, _⟩ => show win0_0.index t (0 : Fin 3) * 1 + 1 * 0 = t.val % 128; rw [h0]; omega
  | ⟨1, _⟩ => show win0_0.index t (1 : Fin 3) * 512 + 1 * r.val = t.val / 128 * 512 + r.val; rw [h1]; omega
  | ⟨2, _⟩ => show win0_0.index t (2 : Fin 3) * 64 + 1 * κ.val = κ.val; rw [h2]; omega

theorem zblk_apply (c : Dev nD) (t : Fin cfg0.N) (r : Fin 512) (κ : Fin 64) (hs : t.val % 128 < 128) (hn : t.val / 128 * 512 + r.val < 2048) :
    (iblk0 V c 1 t : S1x512x64.Idx → EReal) (ix3 (0 : Fin 1) r κ)
      = (V c main_v1 : S128x2048x64.Idx → EReal) (ix3 (⟨t.val % 128, hs⟩ : Fin 128) (⟨t.val / 128 * 512 + r.val, hn⟩ : Fin 2048) κ) := by
  unfold iblk0
  rw [View.read_apply]
  show (V c main_v1 : S128x2048x64.Idx → EReal) _ = _
  refine congrArg _ (funext fun a => Fin.ext ?_)
  obtain ⟨-, -, -, h0, h1, h2, -⟩ := index_facts t
  match a with
  | ⟨0, _⟩ => show win0_1.index t (0 : Fin 3) * 1 + 1 * 0 = t.val % 128; rw [h0]; omega
  | ⟨1, _⟩ => show win0_1.index t (1 : Fin 3) * 512 + 1 * r.val = t.val / 128 * 512 + r.val; rw [h1]; omega
  | ⟨2, _⟩ => show win0_1.index t (2 : Fin 3) * 64 + 1 * κ.val = κ.val; rw [h2]; omega

/-- A block row scaled to unit length is the array's addend at the block's time and row. -/
theorem punit_blk (c : Dev nD) (t : Fin cfg0.N) (r : Fin 512) (d : Fin 64) :
    Cert.Spec.unitEntry (fun κ => (iblk0 V c 0 t : S1x512x64.Idx → EReal) (ix3 (0 : Fin 1) r κ)) d
      = addend (V c main_v0) (t.val / 128 * 512 + r.val) d (t.val % 128) := by
  have ht := point_lt t
  have hs : t.val % 128 < 128 := Nat.mod_lt _ (by decide)
  have hn : t.val / 128 * 512 + r.val < 2048 := by have := r.isLt; omega
  unfold addend
  rw [dif_pos ⟨hs, hn⟩]
  exact congrArg (fun v => Cert.Spec.unitEntry v d) (funext fun κ => pblk_apply V c t r κ hs hn)

theorem zunit_blk (c : Dev nD) (t : Fin cfg0.N) (r : Fin 512) (d : Fin 64) :
    Cert.Spec.unitEntry (fun κ => (iblk0 V c 1 t : S1x512x64.Idx → EReal) (ix3 (0 : Fin 1) r κ)) d
      = addend (V c main_v1) (t.val / 128 * 512 + r.val) d (t.val % 128) := by
  have ht := point_lt t
  have hs : t.val % 128 < 128 := Nat.mod_lt _ (by decide)
  have hn : t.val / 128 * 512 + r.val < 2048 := by have := r.isLt; omega
  unfold addend
  rw [dif_pos ⟨hs, hn⟩]
  exact congrArg (fun v => Cert.Spec.unitEntry v d) (funext fun κ => zblk_apply V c t r κ hs hn)

/-- At a reset point the accumulator of p is left at the point's own addend. -/
theorem pacc_reset (c : Dev nD) (t : Fin cfg0.N) (h0 : t.val % 128 = 0) (r : Fin 512) (d : Fin 64) :
    ((outsAt0 V c t.val t.isLt).1 : S512x64.Idx → EReal) (ix2 r d)
      = addend (V c main_v0) (t.val / 128 * 512 + r.val) d (t.val % 128) := by
  rw [outsAt0_A V c t h0]
  dsimp only
  rw [out_A_2, pay3_apply, zero1_apply, zero_add, punit_blk]

/-- At any other point it is what the point before left plus the point's addend. -/
theorem pacc_step (c : Dev nD) (t : Fin cfg0.N) (h0 : ¬t.val % 128 = 0) (r : Fin 512) (d : Fin 64) :
    ((outsAt0 V c t.val t.isLt).1 : S512x64.Idx → EReal) (ix2 r d)
      = ((outsAt0 V c (t.val - 1) (Nat.lt_of_le_of_lt (Nat.sub_le _ _) t.isLt)).1 : S512x64.Idx → EReal) (ix2 r d)
        + addend (V c main_v0) (t.val / 128 * 512 + r.val) d (t.val % 128) := by
  rw [outsAt0_B V c t h0]
  dsimp only
  rw [out_B_2, pay3_apply, punit_blk]

theorem zacc_reset (c : Dev nD) (t : Fin cfg0.N) (h0 : t.val % 128 = 0) (r : Fin 512) (d : Fin 64) :
    ((outsAt0 V c t.val t.isLt).2 : S512x64.Idx → EReal) (ix2 r d)
      = addend (V c main_v1) (t.val / 128 * 512 + r.val) d (t.val % 128) := by
  rw [outsAt0_A V c t h0]
  dsimp only
  rw [out_A_3, pay4_apply, zero2_apply, zero_add, zunit_blk]

theorem zacc_step (c : Dev nD) (t : Fin cfg0.N) (h0 : ¬t.val % 128 = 0) (r : Fin 512) (d : Fin 64) :
    ((outsAt0 V c t.val t.isLt).2 : S512x64.Idx → EReal) (ix2 r d)
      = ((outsAt0 V c (t.val - 1) (Nat.lt_of_le_of_lt (Nat.sub_le _ _) t.isLt)).2 : S512x64.Idx → EReal) (ix2 r d)
        + addend (V c main_v1) (t.val / 128 * 512 + r.val) d (t.val % 128) := by
  rw [outsAt0_B V c t h0]
  dsimp only
  rw [out_B_3, pay4_apply, zunit_blk]

end AtIdeal

section Sums
open Idealize.ShloMosaic.ValueIdx Cert.KernelIdeal.Payload

variable (V : (c : Dev nD) → (b : Ref sig .tc) → Buf (Elt Ideal) ((c : Thread nD τ).loc b))

theorem addend_congr (y : S128x2048x64.Idx → EReal) {n n' : ℕ} {d d' : Fin 64} (hn : n = n') (hd : d = d') (s : ℕ) :
    addend y n d s = addend y n' d' s := by subst hn; subst hd; rfl

/-- After point `n`, row `r` of p's accumulator holds the addends of the times 0 … n % 128 of row (n / 128)·512 + r:
    the run of points since the last reset, summed. By induction on the point. -/
theorem pacc_sum (c : Dev nD) : ∀ (n : ℕ) (h : n < cfg0.N) (r : Fin 512) (d : Fin 64),
    ((outsAt0 V c n h).1 : S512x64.Idx → EReal) (ix2 r d)
      = ∑ s ∈ Finset.range (n % 128 + 1), addend (V c main_v0) (n / 128 * 512 + r.val) d s
  | 0, h, r, d => by
    rw [pacc_reset V c ⟨0, h⟩ rfl r d]
    show addend (V c main_v0) (0 / 128 * 512 + r.val) d (0 % 128) = _
    simp only [Nat.zero_mod, Nat.zero_add, Finset.sum_range_one]
  | n + 1, h, r, d => by
    by_cases h0 : (n + 1) % 128 = 0
    · rw [pacc_reset V c ⟨n + 1, h⟩ h0 r d]
      show addend (V c main_v0) ((n + 1) / 128 * 512 + r.val) d ((n + 1) % 128) = _
      rw [h0, Nat.zero_add, Finset.sum_range_one]
    · rw [pacc_step V c ⟨n + 1, h⟩ h0 r d]
      show ((outsAt0 V c n (Nat.lt_of_succ_lt h)).1 : S512x64.Idx → EReal) (ix2 r d)
        + addend (V c main_v0) ((n + 1) / 128 * 512 + r.val) d ((n + 1) % 128) = _
      rw [pacc_sum c n (Nat.lt_of_succ_lt h) r d]
      have e1 : (n + 1) / 128 = n / 128 := by omega
      have e2 : (n + 1) % 128 = n % 128 + 1 := by omega
      rw [e1, e2, Finset.sum_range_succ _ (n % 128 + 1)]

theorem zacc_sum (c : Dev nD) : ∀ (n : ℕ) (h : n < cfg0.N) (r : Fin 512) (d : Fin 64),
    ((outsAt0 V c n h).2 : S512x64.Idx → EReal) (ix2 r d)
      = ∑ s ∈ Finset.range (n % 128 + 1), addend (V c main_v1) (n / 128 * 512 + r.val) d s
  | 0, h, r, d => by
    rw [zacc_reset V c ⟨0, h⟩ rfl r d]
    show addend (V c main_v1) (0 / 128 * 512 + r.val) d (0 % 128) = _
    simp only [Nat.zero_mod, Nat.zero_add, Finset.sum_range_one]
  | n + 1, h, r, d => by
    by_cases h0 : (n + 1) % 128 = 0
    · rw [zacc_reset V c ⟨n + 1, h⟩ h0 r d]
      show addend (V c main_v1) ((n + 1) / 128 * 512 + r.val) d ((n + 1) % 128) = _
      rw [h0, Nat.zero_add, Finset.sum_range_one]
    · rw [zacc_step V c ⟨n + 1, h⟩ h0 r d]
      show ((outsAt0 V c n (Nat.lt_of_succ_lt h)).2 : S512x64.Idx → EReal) (ix2 r d)
        + addend (V c main_v1) ((n + 1) / 128 * 512 + r.val) d ((n + 1) % 128) = _
      rw [zacc_sum c n (Nat.lt_of_succ_lt h) r d]
      have e1 : (n + 1) / 128 = n / 128 := by omega
      have e2 : (n + 1) % 128 = n % 128 + 1 := by omega
      rw [e1, e2, Finset.sum_range_succ _ (n % 128 + 1)]

/-- The [2048, 64] array of a [128, 2048, 64] array's unit rows summed over the 128 times. -/
def timeSums (y : S128x2048x64.Idx → EReal) : S2048x64.Idx → EReal :=
  fun j => ∑ s ∈ Finset.range 128, addend y (j 0).val ⟨(j 1).val, (j 1).isLt⟩ s

/-- A write-back of p's accumulator (at the last time of a row block) writes that block of the summed array. -/
theorem pflushed (c : Dev nD) (t : Fin cfg0.N) (hf : (cfg0.win 2).flush t = true) :
    (dat0 V c).flushed 2 t = ((cfg0.win 2).blk t).view.read (Elt Ideal) (timeSums (V c main_v0)) := by
  have h127 : t.val % 128 = 127 := (flush0_2 t).mp hf
  show (cfg0.win 2).cut (grid0.coords t) ((dat0 V c).after 2 t) = _
  rw [after0_2]
  funext y
  obtain ⟨r, d, rfl⟩ : ∃ (r : Fin 512) (d : Fin 64), y = ix2 r d := ⟨y 0, y 1, eq_ix2 y⟩
  rw [View.read_apply]
  show ((outsAt0 V c t.val t.isLt).1 : S512x64.Idx → EReal) (ix2 r d) = timeSums (V c main_v0) (((cfg0.win 2).blk t).view.emb (ix2 r d))
  rw [pacc_sum V c t.val t.isLt r d, h127]
  unfold timeSums
  obtain ⟨-, -, -, -, -, -, h0, h1, -⟩ := index_facts t
  refine Finset.sum_congr rfl fun s _ => addend_congr _ ?_ (Fin.ext ?_) s
  · show t.val / 128 * 512 + r.val = win0_2.index t (0 : Fin 2) * 512 + 1 * r.val
    rw [h0]; omega
  · show d.val = win0_2.index t (1 : Fin 2) * 64 + 1 * d.val
    rw [h1]; omega

theorem zflushed (c : Dev nD) (t : Fin cfg0.N) (hf : (cfg0.win 3).flush t = true) :
    (dat0 V c).flushed 3 t = ((cfg0.win 3).blk t).view.read (Elt Ideal) (timeSums (V c main_v1)) := by
  have h127 : t.val % 128 = 127 := (flush0_3 t).mp hf
  show (cfg0.win 3).cut (grid0.coords t) ((dat0 V c).after 3 t) = _
  rw [after0_3]
  funext y
  obtain ⟨r, d, rfl⟩ : ∃ (r : Fin 512) (d : Fin 64), y = ix2 r d := ⟨y 0, y 1, eq_ix2 y⟩
  rw [View.read_apply]
  show ((outsAt0 V c t.val t.isLt).2 : S512x64.Idx → EReal) (ix2 r d) = timeSums (V c main_v1) (((cfg0.win 3).blk t).view.emb (ix2 r d))
  rw [zacc_sum V c t.val t.isLt r d, h127]
  unfold timeSums
  obtain ⟨-, -, -, -, -, -, -, -, h0, h1⟩ := index_facts t
  refine Finset.sum_congr rfl fun s _ => addend_congr _ ?_ (Fin.ext ?_) s
  · show t.val / 128 * 512 + r.val = win0_3.index t (0 : Fin 2) * 512 + 1 * r.val
    rw [h0]; omega
  · show d.val = win0_3.index t (1 : Fin 2) * 64 + 1 * d.val
    rw [h1]; omega

/-- An index of the [2048, 64] array is in point `t`'s block iff each coordinate is in the block's range. -/
theorem mem_pblk (t : Fin cfg0.N) (i : S2048x64.Idx) :
    i ∈ ((cfg0.win 2).blk t).view.set ↔ ∀ a : Fin 2, win0_2.index t a * S512x64.size a ≤ (i a).val ∧ (i a).val < win0_2.index t a * S512x64.size a + S512x64.size a := by
  show i ∈ ((View.whole main_v2_0).slice (win0_2.rect t)).set ↔ _
  rw [View.set_slice_whole, Rect.mem_set_unit]
  exact Iff.rfl

theorem mem_zblk (t : Fin cfg0.N) (i : S2048x64.Idx) :
    i ∈ ((cfg0.win 3).blk t).view.set ↔ ∀ a : Fin 2, win0_3.index t a * S512x64.size a ≤ (i a).val ∧ (i a).val < win0_3.index t a * S512x64.size a + S512x64.size a := by
  show i ∈ ((View.whole main_v2_1).slice (win0_3.rect t)).set ↔ _
  rw [View.set_slice_whole, Rect.mem_set_unit]
  exact Iff.rfl

/-- Row `n` is written back at the last time of its row block: point (n / 512)·128 + 127. -/
theorem pcover (i : S2048x64.Idx) : ∃ t : Fin cfg0.N, (cfg0.win 2).flush t = true ∧ i ∈ ((cfg0.win 2).blk t).view.set := by
  have hi0 : (i 0).val < 2048 := (i 0).isLt
  have hi1 : (i 1).val < 64 := (i 1).isLt
  have hlt : (i 0).val / 512 * 128 + 127 < cfg0.N := by rw [show cfg0.N = 512 from N_0]; omega
  refine ⟨⟨(i 0).val / 512 * 128 + 127, hlt⟩, (flush0_2 _).mpr (by dsimp only; omega), ?_⟩
  rw [mem_pblk]
  obtain ⟨-, -, -, -, -, -, h0, h1, -⟩ := index_facts ⟨(i 0).val / 512 * 128 + 127, hlt⟩
  dsimp only at h0 h1
  intro a
  match a with
  | ⟨0, _⟩ => show win0_2.index ⟨(i 0).val / 512 * 128 + 127, hlt⟩ (0 : Fin 2) * 512 ≤ (i 0).val ∧ (i 0).val < win0_2.index ⟨(i 0).val / 512 * 128 + 127, hlt⟩ (0 : Fin 2) * 512 + 512; omega
  | ⟨1, _⟩ => show win0_2.index ⟨(i 0).val / 512 * 128 + 127, hlt⟩ (1 : Fin 2) * 64 ≤ (i 1).val ∧ (i 1).val < win0_2.index ⟨(i 0).val / 512 * 128 + 127, hlt⟩ (1 : Fin 2) * 64 + 64; omega

theorem zcover (i : S2048x64.Idx) : ∃ t : Fin cfg0.N, (cfg0.win 3).flush t = true ∧ i ∈ ((cfg0.win 3).blk t).view.set := by
  have hi0 : (i 0).val < 2048 := (i 0).isLt
  have hi1 : (i 1).val < 64 := (i 1).isLt
  have hlt : (i 0).val / 512 * 128 + 127 < cfg0.N := by rw [show cfg0.N = 512 from N_0]; omega
  refine ⟨⟨(i 0).val / 512 * 128 + 127, hlt⟩, (flush0_3 _).mpr (by dsimp only; omega), ?_⟩
  rw [mem_zblk]
  obtain ⟨-, -, -, -, -, -, -, -, h0, h1⟩ := index_facts ⟨(i 0).val / 512 * 128 + 127, hlt⟩
  dsimp only at h0 h1
  intro a
  match a with
  | ⟨0, _⟩ => show win0_3.index ⟨(i 0).val / 512 * 128 + 127, hlt⟩ (0 : Fin 2) * 512 ≤ (i 0).val ∧ (i 0).val < win0_3.index ⟨(i 0).val / 512 * 128 + 127, hlt⟩ (0 : Fin 2) * 512 + 512; omega
  | ⟨1, _⟩ => show win0_3.index ⟨(i 0).val / 512 * 128 + 127, hlt⟩ (1 : Fin 2) * 64 ≤ (i 1).val ∧ (i 1).val < win0_3.index ⟨(i 0).val / 512 * 128 + 127, hlt⟩ (1 : Fin 2) * 64 + 64; omega

/-- So the first region leaves its two result arrays at the time sums of the two [128, 2048, 64] arrays it was entered with. -/
theorem psum_final (c : Dev nD) : (dat0 V c).arrAt 2 cfg0.N = timeSums (V c main_v0) :=
  (dat0 V c).arrAt_eq_of_cover 2 (timeSums (V c main_v0)) (pflushed V c) pcover

theorem zsum_final (c : Dev nD) : (dat0 V c).arrAt 3 cfg0.N = timeSums (V c main_v1) :=
  (dat0 V c).arrAt_eq_of_cover 3 (timeSums (V c main_v1)) (zflushed V c) zcover

end Sums

end Cert.KernelIdeal.Accum

end
-- ==== Proof.Tail.lean ====
/-
  The end of the kernel program: from region 0's two [2048, 64] results to the scalar the program returns.

  Region 1 has one grid point. Its two operand blocks are the whole arrays region 0 wrote, its body multiplies them
  entry by entry, sums the 64 lanes of each row and then the 2048 rows, and stores the total as the [1, 1] result, whose
  one block is the whole result array and is written back at that point. The host then reshapes the [1, 1] result to a
  scalar, negates it and divides it by the count word. So the returned scalar is

      ( -( Σ_n Σ_d A(n, d) · B(n, d) ) ) / countWord

  with A and B region 0's two results.
-/
import proofs.«153380_j13872744366785_1_alg».proof.Proof.Gen.KernelIdeal.Frame
import proofs.«153380_j13872744366785_1_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

namespace Cert.KernelIdeal.Tail
open Idealize.ShloMosaic Idealize.ShloMosaic.ValueIdx Cert.KernelIdeal Cert.KernelIdeal.Gen

/-- Region 1's result block, as a function of literal type. -/
abbrev blk3 (m : (ℓ : Loc nD τ sig) → Buf (Elt Ideal) ℓ) (ρ : Dev nD → PrngReg) (c : Dev nD) : S1x1.Idx → EReal :=
  W3 m ρ c (Proc.devRef .tc main_v3)

/-- Region 0's two results (region 1's two operands), as matrices of extended reals. -/
abbrev in0 (m : (ℓ : Loc nD τ sig) → Buf (Elt Ideal) ℓ) (ρ : Dev nD → PrngReg) (c : Dev nD) : S2048x64.Idx → EReal :=
  V2 m ρ c main_v2_0
abbrev in1 (m : (ℓ : Loc nD τ sig) → Buf (Elt Ideal) ℓ) (ρ : Dev nD → PrngReg) (c : Dev nD) : S2048x64.Idx → EReal :=
  V2 m ρ c main_v2_1

theorem hz2 : (![0, 0] : Fin 2 → Nat) = fun _ => 0 := funext fun a => by fin_cases a <;> rfl

/-- A sum over the lanes of a [2048, 64] vector, read at row n. -/
theorem laneSum_apply (x : FVec Ideal S2048x64 .f32) (h : S2048x64.Reduces [1] S2048) (hφ : FKind.Formats .f32)
    (hacc : (0x00000000#32 : BitVec 32) = FKind.add.neutral .f32 hφ) (n : Fin 2048) :
    multiReduction .add [1] S2048 x 0x00000000#32 h hφ hacc (ix1 n) = ∑ d : Fin 64, x (ix2 n d) := by
  rw [Ideal.multiReduction_add_single]
  show ∑ d : Fin 64, x (h.lift (ix1 n) d) = _
  refine Finset.sum_congr rfl fun d _ => congrArg x ?_
  funext a
  match a with
  | ⟨0, _⟩ => rfl
  | ⟨1, _⟩ => rfl

/-- A sum over the rows of a [2048, 1] vector. -/
theorem rowSum_apply (y : FVec Ideal S2048x1 .f32) (h : S2048x1.Reduces [0] S1) (hφ : FKind.Formats .f32)
    (hacc : (0x00000000#32 : BitVec 32) = FKind.add.neutral .f32 hφ) (v : Fin 1) :
    multiReduction .add [0] S1 y 0x00000000#32 h hφ hacc (ix1 v) = ∑ n : Fin 2048, y (ix2 n (0 : Fin 1)) := by
  rw [Ideal.multiReduction_add_single]
  show ∑ n : Fin 2048, y (h.lift (ix1 v) n) = _
  refine Finset.sum_congr rfl fun n _ => congrArg y ?_
  funext a
  match a with
  | ⟨0, _⟩ => rfl
  | ⟨1, _⟩ => exact Fin.ext (by show (v : Nat) = 0; omega)

/-- A [2048] vector viewed as [2048, 1]. -/
theorem col_apply (z : FVec Ideal S2048 .f32) (h : S2048.ShapeCasts S2048x1) (n : Fin 2048) (u : Fin 1) :
    shapeCast S2048x1 z h (ix2 n u) = z (ix1 n) :=
  shapeCast_apply z h _ _ (by
    have hu : u.val = 0 := by omega
    rw [Shape.rowMajor_val_two, Shape.rowMajor_val_one]
    show n.val = n.val * 1 + u.val
    rw [hu]; omega)

/-- The value the second kernel stores: the lane sums, then the row sum, of the elementwise product. -/
theorem pay_apply (a b : Vec Ideal S2048x64 .f32) (j : S1x1.Idx) :
    (k1_pay1 a b : S1x1.Idx → EReal) j = ∑ n : Fin 2048, ∑ d : Fin 64, a (ix2 n d) * b (ix2 n d) := by
  obtain ⟨u, v, rfl⟩ : ∃ u v, j = ix2 u v := ⟨j 0, j 1, eq_ix2 j⟩
  unfold k1_pay1
  simp only [shapeCast_self]
  refine (shapeCast_a_1a_apply _ _ u v).trans ?_
  refine (rowSum_apply _ _ _ _ v).trans ?_
  refine Finset.sum_congr rfl fun n _ => ?_
  refine (col_apply _ _ n 0).trans ?_
  exact laneSum_apply _ _ _ _ n

/-- What the body leaves in the result's staging buffer, from the two operand blocks. -/
theorem out_apply (a b : Vec Ideal S2048x64 .f32) (j : S1x1.Idx) :
    (out1_2 a b : S1x1.Idx → EReal) j = ∑ n : Fin 2048, ∑ d : Fin 64, a (ix2 n d) * b (ix2 n d) := by
  unfold out1_2
  rw [View.canon_unit_zero hz2, View.ld_unit_zero hz2, View.ld_unit_zero hz2]
  exact pay_apply a b j

/-- Region 1's one grid point reads each operand through a block that is the whole array. -/
theorem iblk0_eq (m : (ℓ : Loc nD τ sig) → Buf (Elt Ideal) ℓ) (ρ : Dev nD → PrngReg) (c : Dev nD) :
    (iblk1 (V2 m ρ) c 0 t1_0 : S2048x64.Idx → EReal) = in0 m ρ c := by
  unfold iblk1
  have hz' : (fun a => win1_0.index t1_0 a * main_v2_0.ty.shape.size a) = fun _ => 0 :=
    funext fun a => by fin_cases a <;> decide +kernel
  exact Memref.read_access_unit_zero (Elt Ideal) main_v2_0 hz' (fun a => by rw [congrFun hz' a]; simp) (in0 m ρ c)

theorem iblk1_eq (m : (ℓ : Loc nD τ sig) → Buf (Elt Ideal) ℓ) (ρ : Dev nD → PrngReg) (c : Dev nD) :
    (iblk1 (V2 m ρ) c 1 t1_0 : S2048x64.Idx → EReal) = in1 m ρ c := by
  unfold iblk1
  have hz' : (fun a => win1_1.index t1_0 a * main_v2_1.ty.shape.size a) = fun _ => 0 :=
    funext fun a => by fin_cases a <;> decide +kernel
  exact Memref.read_access_unit_zero (Elt Ideal) main_v2_1 hz' (fun a => by rw [congrFun hz' a]; simp) (in1 m ρ c)

/-- What region 1 leaves in its [1, 1] result, as contents of the result array (its one block is the array). -/
abbrev result (m : (ℓ : Loc nD τ sig) → Buf (Elt Ideal) ℓ) (ρ : Dev nD → PrngReg) (c : Dev nD) :
    Buf (Elt Ideal) ((c.tc : Thread nD τ).loc main_v3) :=
  out1_2 (iblk1 (V2 m ρ) c 0 t1_0) (iblk1 (V2 m ρ) c 1 t1_0)

/-- The one write-back writes it: block (0, 0) of the [1, 1] array, read through zero offsets, is the array. -/
theorem flushed_eq (m : (ℓ : Loc nD τ sig) → Buf (Elt Ideal) ℓ) (ρ : Dev nD → PrngReg) (c : Dev nD)
    (t : Fin cfg1.N) (hf : (cfg1.win 2).flush t = true) :
    (dat1 (V2 m ρ) c).flushed 2 t = ((cfg1.win 2).blk t).view.read (Elt Ideal) (result m ρ c) := by
  obtain rfl : t = t1_0 := fin_N1 t
  show (cfg1.win 2).cut (grid1.coords t1_0) ((dat1 (V2 m ρ) c).after 2 t1_0) = _
  rw [after1_2]
  have hz' : (fun a => win1_2.index t1_0 a * main_v3.ty.shape.size a) = fun _ => 0 :=
    funext fun a => by fin_cases a <;> decide +kernel
  exact (Memref.read_access_unit_zero (Elt Ideal) main_v3 hz' (fun a => by rw [congrFun hz' a]; simp) (result m ρ c)).symm

/-- So the result array ends holding it: the one point's block covers the array. -/
theorem final_v3 (m : (ℓ : Loc nD τ sig) → Buf (Elt Ideal) ℓ) (ρ : Dev nD → PrngReg) (c : Dev nD) :
    (dat1 (V2 m ρ) c).arrAt 2 cfg1.N = result m ρ c :=
  (dat1 (V2 m ρ) c).arrAt_eq_of_cover 2 (result m ρ c) (flushed_eq m ρ c) fun i =>
    ⟨t1_0, flush1_2 t1_0, by
      show i ∈ ((View.whole main_v3).slice (win1_2.rect t1_0)).set
      rw [View.set_slice_whole, Rect.mem_set_unit]
      intro a
      have h0 : (i 0 : Nat) < 1 := (i 0).isLt
      have h1 : (i 1 : Nat) < 1 := (i 1).isLt
      match a with
      | ⟨0, _⟩ =>
        show win1_2.index t1_0 0 * win1_2.size 0 ≤ (i 0 : Nat) ∧ (i 0 : Nat) < win1_2.index t1_0 0 * win1_2.size 0 + win1_2.xsize (grid1.coords t1_0) 0
        rw [show win1_2.index t1_0 0 * win1_2.size 0 = 0 from by decide +kernel, show win1_2.xsize (grid1.coords t1_0) 0 = 1 from by decide +kernel]; omega
      | ⟨1, _⟩ =>
        show win1_2.index t1_0 1 * win1_2.size 1 ≤ (i 1 : Nat) ∧ (i 1 : Nat) < win1_2.index t1_0 1 * win1_2.size 1 + win1_2.xsize (grid1.coords t1_0) 1
        rw [show win1_2.index t1_0 1 * win1_2.size 1 = 0 from by decide +kernel, show win1_2.xsize (grid1.coords t1_0) 1 = 1 from by decide +kernel]; omega⟩

/-- Region 1's result, read at its one index, is the sum over rows and lanes of the products of region 0's two results. -/
theorem blk3_apply (m : (ℓ : Loc nD τ sig) → Buf (Elt Ideal) ℓ) (ρ : Dev nD → PrngReg) (c : Dev nD) (j : S1x1.Idx) :
    blk3 m ρ c j = ∑ n : Fin 2048, ∑ d : Fin 64, in0 m ρ c (ix2 n d) * in1 m ρ c (ix2 n d) := by
  have e : blk3 m ρ c = result m ρ c := (W3_arr m ρ c 2).trans (final_v3 m ρ c)
  rw [e]
  show (out1_2 (iblk1 (V2 m ρ) c 0 t1_0) (iblk1 (V2 m ρ) c 1 t1_0) : S1x1.Idx → EReal) j = _
  rw [iblk0_eq, iblk1_eq]
  exact out_apply (in0 m ρ c) (in1 m ρ c) j

/-- The host tail: the [1, 1] result reshaped to a scalar, negated, divided by the count word. -/
theorem host_tail (m : (ℓ : Loc nD τ sig) → Buf (Elt Ideal) ℓ) (ρ : Dev nD → PrngReg) (c : Dev nD) :
    (W4 m ρ c (Proc.devRef .tc main_v6) : S_.Idx → EReal)
      = fun _ => Ideal.div (-(blk3 m ρ c (ix2 0 0))) Cert.Spec.countWord := by
  show StableHlo.after hostOps2 _ (Proc.devRef .tc main_v6) = _
  after_results
  funext x
  show Ideal.div (-(shapeCast S_ (blk3 m ρ c) shapeCasts_S1x1_S_ x)) (Ideal.ofBits .f32 0x4C000000#32) = _
  rw [shapeCast_apply (blk3 m ρ c) shapeCasts_S1x1_S_ x (ix2 0 0) (by
    obtain rfl := eq_ix0 x
    rfl)]
  rfl

/-- The program's result from any two matrices region 0's results are known to be. -/
theorem result_of_sums_of (m : (ℓ : Loc nD τ sig) → Buf (Elt Ideal) ℓ) (ρ : Dev nD → PrngReg) (c : Dev nD)
    (A B : S2048x64.Idx → EReal) (hA : in0 m ρ c = A) (hB : in1 m ρ c = B) :
    (W4 m ρ c (Proc.devRef .tc main_v6) : S_.Idx → EReal)
      = fun _ => Ideal.div (-(∑ n : Fin 2048, ∑ d : Fin 64, A (ix2 n d) * B (ix2 n d))) Cert.Spec.countWord := by
  rw [host_tail, blk3_apply, hA, hB]

/-- The program's result from region 0's two results: minus their entrywise product summed over rows and lanes, over the count word. -/
theorem result_of_sums (m : (ℓ : Loc nD τ sig) → Buf (Elt Ideal) ℓ) (ρ : Dev nD → PrngReg) (c : Dev nD) :
    (W4 m ρ c (Proc.devRef .tc main_v6) : S_.Idx → EReal)
      = fun _ => Ideal.div (-(∑ n : Fin 2048, ∑ d : Fin 64, in0 m ρ c (ix2 n d) * in1 m ρ c (ix2 n d)))
        Cert.Spec.countWord :=
  result_of_sums_of m ρ c _ _ rfl rfl

end Cert.KernelIdeal.Tail

end
-- ==== Proof.KernelValue.lean ====
/-
  The kernel program's result as the specification's formula.
  @main reshapes each [262144, 64] matrix to [128, 2048, 64] (row t·2048 + n becomes (t, n)); the first region leaves the
  two [2048, 64] arrays of unit rows summed over time; the second region and the host operations after it return
  minus the sum over (n, d) of their entrywise product, divided by 2^25. Read through the reshape, the time sums are
  the specification's, so the result is its kernel formula of the two matrices.
-/
import proofs.«153380_j13872744366785_1_alg».proof.Proof.Accumulate
import proofs.«153380_j13872744366785_1_alg».proof.Proof.Tail
import Idealize.ShloMosaic.Lib.StableHlo.Run

noncomputable section

open Idealize.ShloMosaic Idealize.ShloMosaic.TcCoe Idealize.SL.Sem Idealize.ShloMosaic.ValueIdx

namespace Cert.KernelIdeal.Value

open Cert.KernelIdeal Cert.KernelIdeal.Gen Cert.KernelIdeal.Accum

/-- The reshape reads (t, n, κ) of [128, 2048, 64] at row t·2048 + n, column κ: the same row-major position. -/
theorem reshape_apply (x : S262144x64.Idx → EReal) (t : Fin 128) (n : Fin 2048) (κ : Fin 64) :
    shapeCast S128x2048x64 x shapeCasts_S262144x64_S128x2048x64 (ix3 t n κ) = x (ix2 (Cert.Spec.rowOf t n) κ) :=
  shapeCast_apply x shapeCasts_S262144x64_S128x2048x64 (ix3 t n κ) (ix2 (Cert.Spec.rowOf t n) κ)
    (by rewrite [Shape.rowMajor_val_two, Shape.rowMajor_val_three]
        show (t.val * 2048 + n.val) * 64 + κ.val = (t.val * 2048 + n.val) * 64 + κ.val
        rfl)

/-- The time sums of a reshaped matrix are the specification's time sums of the matrix. -/
theorem timeSums_reshape (x : S262144x64.Idx → EReal) (n : Fin 2048) (d : Fin 64) :
    timeSums (shapeCast S128x2048x64 x shapeCasts_S262144x64_S128x2048x64) (ix2 n d) = Cert.Spec.timeSum x n d := by
  unfold timeSums Cert.Spec.timeSum
  rw [Finset.sum_range]
  refine Finset.sum_congr rfl fun s _ => ?_
  show addend _ n.val d s.val = Cert.Spec.unitAt x s n d
  unfold addend
  rw [dif_pos ⟨s.isLt, n.isLt⟩]
  unfold Cert.Spec.unitAt Cert.Spec.rowAt
  exact congrArg (fun v => Cert.Spec.unitEntry v d) (funext fun κ => reshape_apply x s n κ)

variable (m : (ℓ : Loc nD τ sig) → Buf (Elt Ideal) ℓ) (ρ : Dev nD → PrngReg)

/-- The first region is entered with p reshaped; -/
theorem entry_p (c : Dev nD) :
    (V1 m ρ c main_v0 : S128x2048x64.Idx → EReal)
      = shapeCast S128x2048x64 (m ((c : Thread nD τ).loc main_arg0)) shapeCasts_S262144x64_S128x2048x64 := by
  show StableHlo.after hostOps0 (W0 m ρ c) (Proc.devRef .tc main_v0) = _
  after_results
  rfl

/-- and with z reshaped. -/
theorem entry_z (c : Dev nD) :
    (V1 m ρ c main_v1 : S128x2048x64.Idx → EReal)
      = shapeCast S128x2048x64 (m ((c : Thread nD τ).loc main_arg1)) shapeCasts_S262144x64_S128x2048x64 := by
  show StableHlo.after hostOps0 (W0 m ρ c) (Proc.devRef .tc main_v1) = _
  after_results
  rfl

/-- So the first region's two time-sum arrays are the specification's time sums of p and of z. -/
theorem ptime (c : Dev nD) (n : Fin 2048) (d : Fin 64) :
    timeSums (V1 m ρ c main_v0) (ix2 n d) = Cert.Spec.timeSum (m ((c : Thread nD τ).loc main_arg0)) n d := by
  rw [entry_p, timeSums_reshape]

theorem ztime (c : Dev nD) (n : Fin 2048) (d : Fin 64) :
    timeSums (V1 m ρ c main_v1) (ix2 n d) = Cert.Spec.timeSum (m ((c : Thread nD τ).loc main_arg1)) n d := by
  rw [entry_z, timeSums_reshape]

/-- The program's result: the second region and the host operations after it return minus the sum over (n, d) of the
    product of the two time sums, over 2^25 — the specification's kernel formula of p and z. -/
theorem kernel_value (c : Dev nD) :
    (W4 m ρ c (Proc.devRef .tc main_v6) : S_.Idx → EReal)
      = fun _ => Cert.Spec.kernelLoss (m ((c : Thread nD τ).loc main_arg0)) (m ((c : Thread nD τ).loc main_arg1)) := by
  rw [Cert.KernelIdeal.Tail.result_of_sums_of m ρ c (timeSums (V1 m ρ c main_v0)) (timeSums (V1 m ρ c main_v1))
    ((W2_arr m ρ c 2).trans (psum_final (V1 m ρ) c)) ((W2_arr m ρ c 3).trans (zsum_final (V1 m ρ) c))]
  funext _
  show Ideal.div (-(∑ n : Fin 2048, ∑ d : Fin 64, timeSums (V1 m ρ c main_v0) (ix2 n d) * timeSums (V1 m ρ c main_v1) (ix2 n d))) Cert.Spec.countWord
    = Ideal.div (-(∑ n : Fin 2048, ∑ d : Fin 64, Cert.Spec.timeSum (m ((c : Thread nD τ).loc main_arg0)) n d * Cert.Spec.timeSum (m ((c : Thread nD τ).loc main_arg1)) n d)) Cert.Spec.countWord
  refine congrArg (fun s => Ideal.div (-s) Cert.Spec.countWord)
    (Finset.sum_congr rfl fun n _ => Finset.sum_congr rfl fun d _ => ?_)
  rw [ptime, ztime]

end Cert.KernelIdeal.Value

end
-- ==== Proof.lean ====
/- The certificate of the time-consistency loss kernel against its jnp reference, over the extended reals.
   Both programs take two [262144, 64] matrices p and z (row t·2048 + n is trajectory n at time t; 128 times, 2048
   trajectories) and an integer array neither uses. Each row is scaled to unit length (divided by its Euclidean norm
   floored at the f32 word nearest 1e-12). The reference forms, per trajectory, the 128 × 128 matrix of inner products of
   p's unit rows with z's, and returns minus the mean of all 2048·128·128 = 2^25 entries. The kernel sums the unit rows
   over time first (one accumulating pass over the grid), then takes per trajectory the inner product of the two time
   sums, sums those, negates and divides by 2^25.
   The two agree because Σ_t Σ_s ⟨a_t, b_s⟩ = ⟨Σ_t a_t, Σ_s b_s⟩, a law of the reals that fails at the infinities: it is
   used under the precondition, which makes every entry of p and z, hence every unit row's entry, a real number.
   The three frames are the programs' runs with the results dropped; the idealization rewrote nothing. -/
import proofs.«153380_j13872744366785_1_alg».proof.Defs
import proofs.«153380_j13872744366785_1_alg».proof.Proof.Gen.Kernel
import proofs.«153380_j13872744366785_1_alg».proof.Proof.Gen.Kernel.Skeleton
import proofs.«153380_j13872744366785_1_alg».proof.Proof.Gen.Kernel.Launch
import proofs.«153380_j13872744366785_1_alg».proof.Proof.Gen.Kernel.Points
import proofs.«153380_j13872744366785_1_alg».proof.Proof.Gen.Kernel.Frame
import proofs.«153380_j13872744366785_1_alg».proof.Proof.Gen.KernelIdeal
import proofs.«153380_j13872744366785_1_alg».proof.Proof.Gen.KernelIdeal.Skeleton
import proofs.«153380_j13872744366785_1_alg».proof.Proof.Gen.KernelIdeal.Launch
import proofs.«153380_j13872744366785_1_alg».proof.Proof.Gen.KernelIdeal.Points
import proofs.«153380_j13872744366785_1_alg».proof.Proof.Gen.KernelIdeal.Frame
import proofs.«153380_j13872744366785_1_alg».proof.Proof.Gen.ReferenceIdeal
import proofs.«153380_j13872744366785_1_alg».proof.Proof.Gen.ReferenceIdeal.Run
import proofs.«153380_j13872744366785_1_alg».proof.Proof.Gen.ReferenceIdeal.Read
import proofs.«153380_j13872744366785_1_alg».proof.Proof.Gen.Pre_finite_inputs
import proofs.«153380_j13872744366785_1_alg».proof.Proof.Spec
import proofs.«153380_j13872744366785_1_alg».proof.Proof.Algebra
import proofs.«153380_j13872744366785_1_alg».proof.Proof.Finite
import proofs.«153380_j13872744366785_1_alg».proof.Proof.RefValue
import proofs.«153380_j13872744366785_1_alg».proof.Proof.KernelRun
import proofs.«153380_j13872744366785_1_alg».proof.Proof.KernelValue
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on p and z the kernel ends at its formula of them, the reference at its own, and under the
    precondition — every entry real — the two formulas are one number. -/
theorem algebraic : Cert.algebraic_KernelIdeal_ReferenceIdeal := by
  intro m ρ m' ρ' hpre hagree
  refine ⟨fun c _ => Cert.Spec.kernelLoss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun r h c => ⟨(h c).1.trans (Cert.KernelIdeal.Value.kernel_value m ρ c), (h c).2⟩)
      (Cert.KernelIdeal.Gen.run_named m ρ)
  · refine (θ_run Cert.ReferenceIdeal.defs _ _).mono (fun r h c => ⟨(h c).1.trans ?_, (h c).2⟩)
      (Cert.ReferenceIdeal.Value.run (F := Ideal) m' ρ')
    obtain ⟨hp, hz⟩ := Cert.Finite.real_of_pre _ _ _ (hpre c)
    rw [Cert.ReferenceIdeal.Read.val_main_v17_eq, Cert.RefValue.reference_value, (hagree c).1, (hagree c).2.1]
    funext _
    exact (Cert.Spec.kernelLoss_eq_referenceLoss _ _ hp hz).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
